-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x4096x256 .f32) (main_arg1 : FVec F S256x32 .f32) (main_arg2 : FVec F S32 .f32) (main_arg3 : FVec F S32x256 .f32) (main_arg4 : FVec F S256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_v13 main_v16
-- ==== Kernel.lean ====
abbrev S64x4096x256 : Shape := ⟨3, ![64, 4096, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S64x256 : Shape := ⟨2, ![64, 256]⟩
abbrev S64x128x256 : Shape := ⟨3, ![64, 128, 256]⟩
abbrev S64x32 : Shape := ⟨2, ![64, 32]⟩
abbrev S1x32 : Shape := ⟨2, ![1, 32]⟩
abbrev S1x256 : Shape := ⟨2, ![1, 256]⟩
abbrev S64x1x256 : Shape := ⟨3, ![64, 1, 256]⟩

abbrev nBuf : Space → Nat
  | .hbm => 7
  | .vmem => 13
  | .smem => 0
  | _ => 0

abbrev bufTy : (tb : Table) → Fin (tcTables nBuf tb) → BufTy
  | .hbm, ⟨0, _⟩ => ⟨S64x4096x256, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S64x256, .f32⟩
  | .hbm, ⟨6, _⟩ => ⟨S64x4096x256, .f32⟩
  | .local _ .vmem, ⟨0, _⟩ => ⟨S64x128x256, .f32⟩
  | .local _ .vmem, ⟨1, _⟩ => ⟨S64x128x256, .f32⟩
  | .local _ .vmem, ⟨2, _⟩ => ⟨S256x32, .f32⟩
  | .local _ .vmem, ⟨3, _⟩ => ⟨S32, .f32⟩
  | .local _ .vmem, ⟨4, _⟩ => ⟨S32x256, .f32⟩
  | .local _ .vmem, ⟨5, _⟩ => ⟨S256, .f32⟩
  | .local _ .vmem, ⟨6, _⟩ => ⟨S64x256, .f32⟩
  | .local _ .vmem, ⟨7, _⟩ => ⟨S64x256, .f32⟩
  | .local _ .vmem, ⟨8, _⟩ => ⟨S64x128x256, .f32⟩
  | .local _ .vmem, ⟨9, _⟩ => ⟨S64x128x256, .f32⟩
  | .local _ .vmem, ⟨10, _⟩ => ⟨S64x256, .f32⟩
  | .local _ .vmem, ⟨11, _⟩ => ⟨S64x128x256, .f32⟩
  | .local _ .vmem, ⟨12, _⟩ => ⟨S64x128x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v10 : BitVec 1 := Scalar.cmpi .eq arg0 c31_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x128x256_S64x128x256_0_0_0 : ∀ a, (![0, 0, 0] : Fin 3 → Nat) a + S64x128x256.size a ≤ S64x128x256.size a
  h_S64x128x256 : 0 < S64x128x256.numel
  reduces_S64x128x256_S64x256 : S64x128x256.Reduces [1] S64x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S64x32 : S1x32.Broadcasts S64x32
  inb_S32x256_S32x256_0_0 : ∀ a, (![0, 0] : Fin 2 → Nat) a + S32x256.size a ≤ S32x256.size a
  h_S32x256 : 0 < S32x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  shapeCasts_S64x256_S64x1x256 : S64x256.ShapeCasts S64x1x256
  broadcasts_S64x1x256_S64x128x256 : S64x1x256.Broadcasts S64x128x256
  dot_S64x256_S256x32_S64x32_1_0_0_1_n_n_wf : DotDims.WF S64x256 S256x32 S64x32 [1] [0] [0] [1] [] []
  dot_S64x32_S32x256_S64x256_1_0_0_1_n_n_wf : DotDims.WF S64x32 S32x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x256.size a ≤ S64x4096x256.size a
  hwx0_0 : ∀ i : grid0.Coords, EltTy.bits .f32 = 32 ∨ (Rect.block (s := S64x4096x256) S64x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128x256.size a ≤ S64x4096x256.size a
  hwx1_0 : ∀ i : grid1.Coords, EltTy.bits .f32 = 32 ∨ (Rect.block (s := S64x4096x256) S64x128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128x256.size a ≤ S64x4096x256.size a
  hwx1_2 : ∀ i : grid1.Coords, EltTy.bits .f32 = 32 ∨ (Rect.block (s := S64x4096x256) S64x128x256.size (cc1_transform_2 i) (hinb1_2 i)).WholeWords (EltTy.packing .f32)

variable [Facts₀]

def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf
def dot_S64x32_S32x256_S64x256_1_0_0_1_n_n : DotDims S64x32 S32x256 S64x256 where
  lhsContracting := [1]
  rhsContracting := [0]
  lhsNonContracting := [0]
  rhsNonContracting := [1]
  lhsBatch := []
  rhsBatch := []
  wf := dot_S64x32_S32x256_S64x256_1_0_0_1_n_n_wf

abbrev win0_0 : Pipeline.Window sig grid0 :=
  Pipeline.Window.ofSpec (Memref.whole main_arg0) S64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S64x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x4096x256 : Shape := ⟨3, ![64, 4096, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S_ : Shape := ⟨0, ![]⟩
abbrev S64x256 : Shape := ⟨2, ![64, 256]⟩
abbrev S64x32 : Shape := ⟨2, ![64, 32]⟩
abbrev S1x32 : Shape := ⟨2, ![1, 32]⟩
abbrev S1x256 : Shape := ⟨2, ![1, 256]⟩
abbrev S64x1x256 : Shape := ⟨3, ![64, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x32, .f32⟩
  | .hbm, ⟨11, _⟩ => ⟨S1x32, .f32⟩
  | .hbm, ⟨12, _⟩ => ⟨S64x32, .f32⟩
  | .hbm, ⟨13, _⟩ => ⟨S64x32, .f32⟩
  | .hbm, ⟨14, _⟩ => ⟨S_, .f32⟩
  | .hbm, ⟨15, _⟩ => ⟨S64x32, .f32⟩
  | .hbm, ⟨16, _⟩ => ⟨S64x32, .f32⟩
  | .hbm, ⟨17, _⟩ => ⟨S64x256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x1x256, .f32⟩
  | .hbm, ⟨30, _⟩ => ⟨S64x4096x256, .f32⟩
  | .hbm, ⟨31, _⟩ => ⟨S64x4096x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x4096x256_S64x256_d1 : S64x4096x256.ReducesTo [1] S64x256
  h_S_ : 0 < S_.numel
  bcast_S_S64x256 : S_.BroadcastsInDim S64x256 (![] : Fin 0 → Fin S64x256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  dot_S64x256_S256x32_S64x32_1_0_0_1_n_n_wf : DotDims.WF S64x256 S256x32 S64x32 [1] [0] [0] [1] [] []
  dot_S64x32_S32x256_S64x256_1_0_0_1_n_n_wf : DotDims.WF S64x32 S32x256 S64x256 [1] [0] [0] [1] [] []

variable [Facts₀]

def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf
def dot_S64x32_S32x256_S64x256_1_0_0_1_n_n : DotDims S64x32 S32x256 S64x256 where
  lhsContracting := [1]
  rhsContracting := [0]
  lhsNonContracting := [0]
  rhsNonContracting := [1]
  lhsBatch := []
  rhsBatch := []
  wf := dot_S64x32_S32x256_S64x256_1_0_0_1_n_n_wf

class Facts : Prop extends Facts₀ where

variable [Facts]
-- ==== Proof.KiBodies.lean ====
/-
  The two kernel bodies run on whole staging buffers. The pooling body adds the row sums of one sequence tile to an
  accumulator it keeps in scratch (cleared at the first tile), and at the last tile turns the accumulated sums into the
  gate: the mean over the sequence, two small dense layers with a rectifier between them, a logistic at the end. The
  scaling body multiplies a tile by the gate repeated along the tile's rows. Each triple names what the body leaves in
  the buffers it stores into as the printed payloads of what it loaded; every store fills its buffer whole, so what a
  buffer holds afterwards is the last payload stored.
-/
import proofs.«136757_j27084063768970_1_alg».proof.Proof.Gen.KernelIdeal.Launch
import proofs.«136757_j27084063768970_1_alg».proof.Proof.Gen.KernelIdeal.Skeleton
import proofs.«136757_j27084063768970_1_alg».proof.Proof.Gen.KernelIdeal.Points
import proofs.«136757_j27084063768970_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid0.Coords) : Prop := (Scalar.cmpi .ne (Scalar.extui (Scalar.cmpi .eq (BitVec.ofNat 32 (i 0).val) 0#32)) 0#32) = 1#1
abbrev cond2 (i : grid0.Coords) : Prop := k0_cond2 i = 1#1

theorem hz3 : (![0, 0, 0] : Fin 3 → Nat) = fun _ => 0 := by funext a; fin_cases a <;> rfl
theorem hz2 : (![0, 0] : Fin 2 → Nat) = fun _ => 0 := by funext a; fin_cases a <;> rfl
theorem hz1 : (![0] : Fin 1 → Nat) = fun _ => 0 := by funext a; fin_cases a <;> rfl

/-- A list of stores whose last one fills the whole buffer covers every index. -/
theorem cover_cons_unit_zero {S : Shape} {e : EltTy} {off : Fin S.rank → Nat} (h : off = fun _ => 0)
    (inb : ∀ a, off a + S.size a ≤ S.size a) (p : S.Idx → Elt F e) (L : List (View.Piece (Elt F) S e)) (y : S.Idx) :
    ∃ pc ∈ ((⟨Rect.unit off S.size inb, p⟩ : View.Piece (Elt F) S e) :: L), y ∈ pc.1.set := by
  subst h
  exact ⟨_, List.mem_cons_self, by show y ∈ (Rect.whole S).set; rw [Rect.set_whole]; exact Finset.mem_univ y⟩

set_option maxHeartbeats 1000000 in
/-- The body at the grid's first point: the accumulator is cleared, then the tile's row sums are added to it; the
    gate is not computed, so the weight windows and the output window are not touched. -/
theorem sound_kernel0_A (c : Dev nD) (E : Set ℕ) (i : grid0.Coords) (hc1 : cond1 i) (hc2 : ¬ cond2 i)
    (arg1 : Memref sig .tc .vmem S64x128x256 .f32) (harg1 : arg1.IsWhole)
    (arg2 : Memref sig .tc .vmem S256x32 .f32) (harg2 : arg2.IsWhole) (arg3 : Memref sig .tc .vmem S32 .f32) (harg3 : arg3.IsWhole)
    (arg4 : Memref sig .tc .vmem S32x256 .f32) (harg4 : arg4.IsWhole) (arg5 : Memref sig .tc .vmem S256 .f32) (harg5 : arg5.IsWhole)
    (arg6 : Memref sig .tc .vmem S64x256 .f32) (harg6 : arg6.IsWhole) (arg7 : Memref sig .tc .vmem S64x256 .f32) (harg7 : arg7.IsWhole)
    (x0 : Vec F S64x128x256 .f32) (K : PUnit → sProp 𝕄) :
    iprop(owns (c : Thread nD τ) arg1 fullShare x0 ∗ (∃ d, owns (c : Thread nD τ) arg7 fullShare d)
        ∗ (iprop(owns (c : Thread nD τ) arg1 fullShare x0 ∗ owns (c : Thread nD τ) arg7 fullShare (k0_pay2 k0_pay1 x0)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%d7, %f7, -, H7⟩, Hk⟩
  subst hf0
  sl_exec (disch := first | exact hc1 | exact hc2)
  sl_step
  iapply Hk
  isplitl [H0]
  · iexists f0; isplitr; · ipureintro; rfl
    iexact H0
  · iexists _; isplitr
    swap; · iexact H7
    ipureintro
    sl_unfold_words
    rw [View.read_writes_eq_canon _ _ _ (cover_cons_unit_zero hz2 _ _ _)]
    rw [View.canon_cons_unit_zero hz2]
    simp only [View.readAt_eq_ld, View.readCov_unit_zero (S := S64x256) _ hz2, View.ld_unit_zero (S := S64x256) hz2,
      View.ld_unit_zero (S := S64x128x256) hz3]

set_option maxHeartbeats 1000000 in
/-- The body at a point that is neither first nor last: the tile's row sums are added to the accumulator. -/
theorem sound_kernel0_B (c : Dev nD) (E : Set ℕ) (i : grid0.Coords) (hc1 : ¬ cond1 i) (hc2 : ¬ cond2 i)
    (arg1 : Memref sig .tc .vmem S64x128x256 .f32) (harg1 : arg1.IsWhole)
    (arg2 : Memref sig .tc .vmem S256x32 .f32) (harg2 : arg2.IsWhole) (arg3 : Memref sig .tc .vmem S32 .f32) (harg3 : arg3.IsWhole)
    (arg4 : Memref sig .tc .vmem S32x256 .f32) (harg4 : arg4.IsWhole) (arg5 : Memref sig .tc .vmem S256 .f32) (harg5 : arg5.IsWhole)
    (arg6 : Memref sig .tc .vmem S64x256 .f32) (harg6 : arg6.IsWhole) (arg7 : Memref sig .tc .vmem S64x256 .f32) (harg7 : arg7.IsWhole)
    (x0 : Vec F S64x128x256 .f32) (s : Vec F S64x256 .f32) (K : PUnit → sProp 𝕄) :
    iprop(owns (c : Thread nD τ) arg1 fullShare x0 ∗ owns (c : Thread nD τ) arg7 fullShare s
        ∗ (iprop(owns (c : Thread nD τ) arg1 fullShare x0 ∗ owns (c : Thread nD τ) arg7 fullShare (k0_pay2 s x0)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f7, %hf7, H7⟩, Hk⟩
  subst hf0 hf7
  sl_exec (disch := first | exact hc1 | exact hc2)
  sl_step
  iapply Hk
  isplitl [H0]
  · iexists f0; isplitr; · ipureintro; rfl
    iexact H0
  · iexists _; isplitr
    swap; · iexact H7
    ipureintro
    try sl_unfold_words
    rw [View.read_writes_eq_canon _ _ _ (cover_cons_unit_zero hz2 _ _ _)]
    rw [View.canon_unit_zero hz2]
    simp only [View.readAt_eq_ld, View.ld_unit_zero (S := S64x256) hz2, View.ld_unit_zero (S := S64x128x256) hz3]

set_option maxHeartbeats 1000000 in
theorem sound_kernel0_C (c : Dev nD) (E : Set ℕ) (i : grid0.Coords) (hc1 : ¬ cond1 i) (hc2 : cond2 i)
    (arg1 : Memref sig .tc .vmem S64x128x256 .f32) (harg1 : arg1.IsWhole)
    (arg2 : Memref sig .tc .vmem S256x32 .f32) (harg2 : arg2.IsWhole) (arg3 : Memref sig .tc .vmem S32 .f32) (harg3 : arg3.IsWhole)
    (arg4 : Memref sig .tc .vmem S32x256 .f32) (harg4 : arg4.IsWhole) (arg5 : Memref sig .tc .vmem S256 .f32) (harg5 : arg5.IsWhole)
    (arg6 : Memref sig .tc .vmem S64x256 .f32) (harg6 : arg6.IsWhole) (arg7 : Memref sig .tc .vmem S64x256 .f32) (harg7 : arg7.IsWhole)
    (x0 : Vec F S64x128x256 .f32) (x1 : Vec F S256x32 .f32) (x2 : Vec F S32 .f32) (x3 : Vec F S32x256 .f32) (x4 : Vec F S256 .f32)
    (s : Vec F S64x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 (k0_pay2 s x0) x1 x2 x3 x4)
            ∗ owns (c : Thread nD τ) arg7 fullShare (k0_pay2 s x0)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0 hf1 hf2 hf3 hf4 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [View.read_writes_eq_canon _ _ _ (cover_cons_unit_zero hz2 _ _ _)]
    sl_unfold_words
    rw [View.canon_unit_zero hz2]
    simp only [View.readAt_eq_ld, View.readCov_unit_zero (S := S64x256) _ hz2, View.ld_unit_zero (S := S64x256) hz2,
      View.ld_unit_zero (S := S64x128x256) hz3, View.ld_unit_zero (S := S256x32) hz2, View.ld_unit_zero (S := S32x256) hz2,
      View.ld_unit_zero (S := S32) hz1, View.ld_unit_zero (S := S256) hz1]
  · iexists _; isplitr
    swap; · iexact H7
    ipureintro
    sl_unfold_words
    rw [View.read_writes_eq_canon _ _ _ (cover_cons_unit_zero hz2 _ _ _)]
    rw [View.canon_unit_zero hz2]
    simp only [View.readAt_eq_ld, View.ld_unit_zero (S := S64x256) hz2, View.ld_unit_zero (S := S64x128x256) hz3]

set_option maxHeartbeats 1000000 in
/-- The scaling body: the tile times the gate, the gate repeated along the tile's rows. -/
theorem sound_kernel1 (c : Dev nD) (E : Set ℕ) (i : grid1.Coords) (arg1 : Memref sig .tc .vmem S64x128x256 .f32) (harg1 : arg1.IsWhole)
    (arg2 : Memref sig .tc .vmem S64x256 .f32) (harg2 : arg2.IsWhole) (arg3 : Memref sig .tc .vmem S64x128x256 .f32) (harg3 : arg3.IsWhole)
    (x0 : Vec F S64x128x256 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    try sl_unfold_words
    rw [View.read_writes_eq_canon _ _ _ (cover_cons_unit_zero hz3 _ _ _)]
    rw [View.canon_unit_zero hz3]
    simp only [View.readAt_eq_ld, View.ld_unit_zero (S := S64x256) hz2, View.ld_unit_zero (S := S64x128x256) hz3]

end Cert.KernelIdeal.Hand
end
-- ==== Proof.KiAcc.lean ====
/-
  The pooling kernel's accumulator as a fold over the sequence tiles: cleared before the first tile, then each tile's
  row sums added to what the tiles before it left.
-/
import proofs.«136757_j27084063768970_1_alg».proof.Proof.Gen.KernelIdeal.Skeleton

noncomputable section

namespace Cert.KernelIdeal.Hand

open Cert.KernelIdeal Cert.KernelIdeal.Gen Idealize.ShloMosaic

variable {F : FTy → Type} [FloatOps F]

/-- What the accumulator holds after tile `n`, the tiles given as a sequence of blocks. -/
def accOf (blk : ℕ → Vec F S64x128x256 .f32) : ℕ → Vec F S64x256 .f32
  | 0 => k0_pay2 k0_pay1 (blk 0)
  | n + 1 => k0_pay2 (accOf blk n) (blk (n + 1))

theorem accOf_zero (blk : ℕ → Vec F S64x128x256 .f32) : accOf blk 0 = k0_pay2 k0_pay1 (blk 0) := rfl
theorem accOf_succ (blk : ℕ → Vec F S64x128x256 .f32) (n : ℕ) : accOf blk (n + 1) = k0_pay2 (accOf blk n) (blk (n + 1)) := rfl

end Cert.KernelIdeal.Hand

end
-- ==== Proof.KiRegion0.lean ====
/-
  The pooling region as a pipeline. Every tile of the input is fetched in turn; the two weight matrices and the two
  bias vectors are fetched once and left in place; the gate's block is stored, and written back, at the last tile
  only. Between tiles the kernel keeps the running sums in a scratch buffer, so the region's invariant names what the
  scratch holds: before the first tile anything, after tile n the fold of the tiles' row sums up to n.
-/
import proofs.«136757_j27084063768970_1_alg».proof.Proof.KiBodies
import proofs.«136757_j27084063768970_1_alg».proof.Proof.KiAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The tiles as a sequence, and the accumulator after each -/

theorem N0 : cfg0.N = 32 := N_0

/-- The grid point numbered `n` (taken modulo the 32 tiles, so that the sequence is total). -/
def pt (n : ℕ) : Fin cfg0.N := ⟨n % 32, by rw [N0]; exact Nat.mod_lt _ (by decide)⟩

theorem pt_of_lt (n : ℕ) (h : n < cfg0.N) : pt n = ⟨n, h⟩ :=
  Fin.ext (Nat.mod_eq_of_lt (by rw [N0] at h; exact h))

/-- Tile `n` of the input. -/
def tile (c : Dev nD) (n : ℕ) : Vec F S64x128x256 .f32 := iblk0 V c 0 (pt n)

theorem tile_eq (c : Dev nD) (t : Fin cfg0.N) : tile V c t.val = iblk0 V c 0 t := by
  unfold tile; rw [pt_of_lt t.val t.isLt]

/-- What the scratch accumulator holds after tile `n`. -/
def acc (c : Dev nD) (n : ℕ) : Vec F S64x256 .f32 := accOf (tile V c) n

theorem acc_first (c : Dev nD) (t : Fin cfg0.N) (ht : t.val = 0) : acc V c t.val = k0_pay2 k0_pay1 (iblk0 V c 0 t) := by
  unfold acc; rw [← tile_eq V c t, ht]; rfl

theorem acc_step (c : Dev nD) (t : Fin cfg0.N) (ht : t.val ≠ 0) :
    acc V c t.val = k0_pay2 (acc V c (t.val - 1)) (iblk0 V c 0 t) := by
  unfold acc; rw [← tile_eq V c t]
  obtain ⟨n, hn⟩ := t
  cases n with
  | zero => exact absurd rfl ht
  | succ n => rfl

/-- The gate as the body computes it at tile `t` (meaningful at the last tile, where the sums are complete). -/
def gateAt (c : Dev nD) (t : Fin cfg0.N) : Vec F S64x256 .f32 :=
  k0_pay3 (acc V c t.val) (iblk0 V c 1 t) (iblk0 V c 2 t) (iblk0 V c 3 t) (iblk0 V c 4 t)

/-! ## The invariant -/

/-- The scratch accumulator, a whole scoped buffer of the kernel's own. -/
abbrev scM : Memref sig .tc .vmem S64x256 .f32 := Memref.whole cc0_scratch0

/-- The core's other scoped buffers that this region does not stage (the scaling region's staging buffers), each whole
    at some contents. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before tile `n`: at the start the idle invariant (the scratch at anything); afterwards the scratch at what tile
    `n - 1` left, the other scoped buffers at anything, the generator register at some state. -/
def Phi0 (c : Dev nD) : ℕ → sProp 𝕄
  | 0 => Pipeline.ΦA spec0 c
  | n + 1 => iprop((owns (c : Thread nD τ) scM fullShare (acc V c n) ∗ rest5 (F := F) c) ∗ ∃ r, prngReg c r)

theorem Phi0_pos (c : Dev nD) (n : ℕ) (hn : n ≠ 0) :
    Phi0 V c n = iprop((owns (c : Thread nD τ) scM fullShare (acc V c (n - 1)) ∗ rest5 (F := F) c) ∗ ∃ r, prngReg c r) := by
  cases n with
  | zero => exact absurd rfl hn
  | succ n => rfl

/-- The idle invariant with the scratch singled out. -/
theorem PhiA0_eq (c : Dev nD) :
    (Pipeline.ΦA spec0 c : sProp 𝕄)
      = iprop(((∃ d, owns (c : Thread nD τ) scM fullShare d) ∗ rest5 (F := F) c) ∗ ∃ r, prngReg c r) := by
  unfold Pipeline.ΦA rest5; rw [scopedRest0_eq]; simp only [scM, owns_whole]; rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateAt V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateAt V c t := by dsimp only [dat0]

theorem Phi_castSucc (c : Dev nD) (t : Fin cfg0.N) : (dat0 V c).Φ t.castSucc = Phi0 V c t.val := by
  dsimp only [dat0]; simp only [Fin.coe_castSucc]
theorem Phi_succ (c : Dev nD) (t : Fin cfg0.N) : (dat0 V c).Φ t.succ = Phi0 V c (t.val + 1) := rfl

/-- An input's buffer holds its block at every tile, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## Which case a tile is in, and where the gate's window is idle -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 = 31 :=
  (by decide +kernel : ∀ t : Fin grid0.N, cond2 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile the gate's window is idle and is not written back. -/
theorem idleAt0_5 : ∀ t : Fin cfg0.N, ¬cond2 (grid0.coords t) → cfg0.idle 5 (grid0.coords t) = true := by decide +kernel
theorem noFlush0_5 : ∀ t : Fin cfg0.N, ¬cond2 (grid0.coords t) → (cfg0.win 5).flush t = false := by decide +kernel
/-- At the last tile it is live. -/
theorem liveAt0_5 : ∀ t : Fin cfg0.N, cond2 (grid0.coords t) → cfg0.idle 5 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (st0_0 t) fullShare (iblk0 V c 0 t) := by
  unfold Dat.leavesExact; rw [liveAt0_0 t, after0_0]
theorem leaves0_1 (c : Dev nD) (t : Fin cfg0.N) : (dat0 V c).leavesExact 1 t = owns (c : Thread nD τ) (st0_1 t) fullShare (iblk0 V c 1 t) := by
  unfold Dat.leavesExact; rw [liveAt0_1 t, after0_1]
theorem leaves0_2 (c : Dev nD) (t : Fin cfg0.N) : (dat0 V c).leavesExact 2 t = owns (c : Thread nD τ) (st0_2 t) fullShare (iblk0 V c 2 t) := by
  unfold Dat.leavesExact; rw [liveAt0_2 t, after0_2]
theorem leaves0_3 (c : Dev nD) (t : Fin cfg0.N) : (dat0 V c).leavesExact 3 t = owns (c : Thread nD τ) (st0_3 t) fullShare (iblk0 V c 3 t) := by
  unfold Dat.leavesExact; rw [liveAt0_3 t, after0_3]
theorem leaves0_4 (c : Dev nD) (t : Fin cfg0.N) : (dat0 V c).leavesExact 4 t = owns (c : Thread nD τ) (st0_4 t) fullShare (iblk0 V c 4 t) := by
  unfold Dat.leavesExact; rw [liveAt0_4 t, after0_4]

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl, Phi_castSucc, Phi_succ,
    leaves0_0, leaves0_1, leaves0_2, leaves0_3, leaves0_4]
  have hN : t.val < 32 := lt_of_lt_of_eq t.isLt N0
  by_cases h1 : t.val % 32 = 31
  · -- the last tile: the sums are completed and the gate is stored
    have hz : t.val ≠ 0 := by omega
    have hc1 : ¬ cond1 (grid0.coords t) := fun h => by have := (hcond1 t).mp h; omega
    have hc2 : cond2 (grid0.coords t) := (hcond2 t).mpr h1
    rw [show (dat0 V c).leavesExact 5 t = owns (c : Thread nD τ) (st0_5 t) fullShare ((dat0 V c).after 5 t) from by
      unfold Dat.leavesExact; rw [liveAt0_5 t hc2], after0_5]
    unfold gateAt
    rw [Phi0_pos V c _ hz]
    show _ ⊢ wp _ _ _ _ (fun _ => iprop(iprop((owns (c : Thread nD τ) scM fullShare (acc V c t.val) ∗ rest5 (F := F) c) ∗ ∃ r, prngReg c r) ∗ _))
    rw [acc_step V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel0_C c Set.univ (grid0.coords t) hc1 hc2 _ _ _ _ _ _ _ _ _ _ _ _ _ _
      (iblk0 V c 0 t) (iblk0 V c 1 t) (iblk0 V c 2 t) (iblk0 V c 3 t) (iblk0 V c 4 t) (acc V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc2 : ¬ cond2 (grid0.coords t) := fun h => h1 ((hcond2 t).mp h)
    rw [Dat.leavesExact_idle (dat0 V c) 5 t (idleAt0_5 t hc2) (noFlush0_5 t hc2)]
    by_cases h0 : t.val % 32 = 0
    · -- the first tile: the accumulator is cleared, then the tile's row sums are added
      have hz : t.val = 0 := by omega
      have hc1 : cond1 (grid0.coords t) := (hcond1 t).mpr h0
      rw [show Phi0 V c t.val = Pipeline.ΦA spec0 c from by rw [hz]; rfl, PhiA0_eq]
      show _ ⊢ wp _ _ _ _ (fun _ => iprop(iprop((owns (c : Thread nD τ) scM fullShare (acc V c t.val) ∗ rest5 (F := F) c) ∗ ∃ r, prngReg c r) ∗ _))
      rw [acc_first V c t hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel0_A c Set.univ (grid0.coords t) hc1 hc2 _ _ _ _ _ _ _ _ _ _ _ _ _ _ (iblk0 V c 0 t) _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · -- a tile in between: its row sums are added to what the tiles before it left
      have hz : t.val ≠ 0 := by omega
      have hc1 : ¬ cond1 (grid0.coords t) := fun h => h0 ((hcond1 t).mp h)
      rw [Phi0_pos V c _ hz]
      show _ ⊢ wp _ _ _ _ (fun _ => iprop(iprop((owns (c : Thread nD τ) scM fullShare (acc V c t.val) ∗ rest5 (F := F) c) ∗ ∃ r, prngReg c r) ∗ _))
      rw [acc_step V c t hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel0_B c Set.univ (grid0.coords t) hc1 hc2 _ _ _ _ _ _ _ _ _ _ _ _ _ _ (iblk0 V c 0 t) (acc V c (t.val - 1)) _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  show Pipeline.ΦA spec0 c ⊢ Pipeline.ΦA spec0 c
  exact Idealize.SL.BI.Entails.refl _

/-- After the last tile the invariant gives the idle one back: what the scratch holds is forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last, N0]; decide), PhiA0_eq]
  iintro ⟨⟨HS, Hr⟩, Hg⟩
  isplitl [HS Hr]
  · isplitl [HS]; · iexists _; iexact HS
    iexact Hr
  iexact Hg

end Region0

end Cert.KernelIdeal.Hand
end
-- ==== Proof.KiRegion1.lean ====
/-
  The scaling region as a pipeline: every tile of the input is fetched, multiplied by the gate (one block, fetched
  once and then left in place), and written back to the same tile of the result. Nothing is kept between tiles, so
  the region's invariant is the idle one: the scoped buffers no window stages, at anything, and the generator register.
-/
import proofs.«136757_j27084063768970_1_alg».proof.Proof.KiBodies

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as entered; after the body the two inputs' buffers hold their blocks still and the
    result's buffer holds the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-- An input's buffer holds its block at every tile, fetched there or not: the body never stores into it, and where
    the pipeline does not fetch, the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
end
-- ==== Proof.KiSegs.lean ====
/-
  The two regions as records of @main's run. Between items a core holds every unscoped buffer whole: at launch the
  memory's contents, after the pooling region the same with the gate's array at what that region's write-back leaves,
  after the scaling region the same again with the result's array at what its write-backs leave. Beside the buffers
  ride the generator register at some state and the core owing nothing. Each region takes its windows' arrays out of
  the buffers at entry and puts them back, at their final contents, at exit.
-/
import proofs.«136757_j27084063768970_1_alg».proof.Proof.KiRegion0
import proofs.«136757_j27084063768970_1_alg».proof.Proof.KiRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-! ## The buffers' contents between the items -/

/-- At launch, read at the TensorCore's references: what the pooling region's proof data take. -/
abbrev Va (c : Dev nD) (b : Ref sig .tc) : Buf (Elt F) ((c : Thread nD τ).loc b) := V0 m c b

/-- After the pooling region: its arrays at what the pipeline leaves (the inputs as entered, the gate's array after
    its one write-back), every other buffer as entered. -/
def Wa (c : Dev nD) : Valuation τ sig (Elt F) :=
  Pipeline.withArrays spec0 c (V0 m c) fun w => (dat0 (Va m) c).arrAt w cfg0.N

/-- The launch contents with the gate's array replaced by what the pooling region leaves there. -/
abbrev Wb (c : Dev nD) : Valuation τ sig (Elt F) := Function.update (V0 m c) main_v0 (Wa m c main_v0)
/-- The same read at the TensorCore's references: what the scaling region's proof data take. -/
abbrev Vb (c : Dev nD) (b : Ref sig .tc) : Buf (Elt F) ((c : Thread nD τ).loc b) := Wb m c b

/-- After the scaling region: its arrays at what the pipeline leaves. -/
def Wc (c : Dev nD) : Valuation τ sig (Elt F) :=
  Pipeline.withArrays spec1 c (Wb m c) fun w => (dat1 (Vb m) c).arrAt w cfg1.N

/-- What the regions leave in the arrays they write: after item 0 the pooling region's, after item 1 the scaling region's. -/
def outs : Outs (F := F) := fun j r c => match j with
  | 1 => Wa m c r
  | _ => Wc m c r

theorem V1_eq (c : Dev nD) : V1 m (outs m) c = Wb m c := rfl

/-- The gate's array after the pooling region. -/
theorem outs_gate (c : Dev nD) : outs m 1 main_v0 c = (dat0 (Va m) c).arrAt 5 cfg0.N := by
  show Wa m c main_v0 = _
  unfold Wa; exact Pipeline.withArrays_arr spec0 launch0.win.arr_inj c _ _ 5

/-- The result's array after the scaling region. -/
theorem outs_result (c : Dev nD) : outs m 2 main_v1 c = (dat1 (Vb m) c).arrAt 2 cfg1.N := by
  show Wc m c main_v1 = _
  unfold Wc; exact Pipeline.withArrays_arr spec1 launch1.win.arr_inj c _ _ 2

theorem V1_gate (c : Dev nD) : V1 m (outs m) c main_v0 = (dat0 (Va m) c).arrAt 5 cfg0.N := by
  show Function.update (V0 m c) main_v0 (outs m 1 main_v0 c) main_v0 = _
  rw [Function.update_self]; exact outs_gate m c

theorem V2_result (c : Dev nD) : V2 m (outs m) c main_v1 = (dat1 (Vb m) c).arrAt 2 cfg1.N := by
  show Function.update (V1 m (outs m) c) main_v1 (outs m 2 main_v1 c) main_v1 = _
  rw [Function.update_self]; exact outs_result m c

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Va m) c
  | ⟨1, _⟩ => fun c => dat1 (Vb m) c

abbrev 𝒱₀ : Variants := Variants.none
/-- No core owes another anything: no level is assigned. -/
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
/-- The same beside every item. -/
abbrev E : Fin 3 → Dev nD → sProp 𝕄 := fun _ c => R (F := F) c

/-- At the pooling region's exit each of its arrays holds what the pipeline leaves, -/
theorem hF0 (c : Dev nD) (w : Fin cfg0.W) : (dat0 (Va m) c).arrAt w cfg0.N = V1 m (outs m) c (Pipeline.arrRef spec0 w) := by
  match w with
  | ⟨0, _⟩ => exact (((dat0 (Va m) c).arrAt_in 0 rfl _).trans (A_eq0 (Va m) c 0)).trans (V1_of m (outs m) c main_arg0 (by decide)).symm
  | ⟨1, _⟩ => exact (((dat0 (Va m) c).arrAt_in 1 rfl _).trans (A_eq0 (Va m) c 1)).trans (V1_of m (outs m) c main_arg1 (by decide)).symm
  | ⟨2, _⟩ => exact (((dat0 (Va m) c).arrAt_in 2 rfl _).trans (A_eq0 (Va m) c 2)).trans (V1_of m (outs m) c main_arg2 (by decide)).symm
  | ⟨3, _⟩ => exact (((dat0 (Va m) c).arrAt_in 3 rfl _).trans (A_eq0 (Va m) c 3)).trans (V1_of m (outs m) c main_arg3 (by decide)).symm
  | ⟨4, _⟩ => exact (((dat0 (Va m) c).arrAt_in 4 rfl _).trans (A_eq0 (Va m) c 4)).trans (V1_of m (outs m) c main_arg4 (by decide)).symm
  | ⟨5, _⟩ => exact (V1_gate m c).symm
/-- and every other buffer what it held at entry. -/
theorem hrest0 (c : Dev nD) : ∀ b, b ∉ Finset.univ.image (Pipeline.arrRef spec0) → V1 m (outs m) c b = Va m c b :=
  fun b hb => V1_of m (outs m) c b (by
    intro h
    rw [List.mem_singleton] at h
    exact hb (Finset.mem_image.mpr ⟨5, Finset.mem_univ _, h.symm⟩))

/-- The same of the scaling region. -/
theorem hF1 (c : Dev nD) (w : Fin cfg1.W) : (dat1 (Vb m) c).arrAt w cfg1.N = V2 m (outs m) c (Pipeline.arrRef spec1 w) := by
  match w with
  | ⟨0, _⟩ => exact (((dat1 (Vb m) c).arrAt_in 0 rfl _).trans (A_eq1 (Vb m) c 0)).trans (V2_of m (outs m) c main_arg0 (by decide)).symm
  | ⟨1, _⟩ => exact (((dat1 (Vb m) c).arrAt_in 1 rfl _).trans (A_eq1 (Vb m) c 1)).trans (V2_of m (outs m) c main_v0 (by decide)).symm
  | ⟨2, _⟩ => exact (V2_result m c).symm
theorem hrest1 (c : Dev nD) : ∀ b, b ∉ Finset.univ.image (Pipeline.arrRef spec1) → V2 m (outs m) c b = Vb m c b :=
  fun b hb => V2_of m (outs m) c b (by
    intro h
    rw [List.mem_singleton] at h
    exact hb (Finset.mem_image.mpr ⟨2, Finset.mem_univ _, h.symm⟩))

/-! ## The regions as records -/

set_option backward.isDefEq.respectTransparency.types false in
/-- The pooling region: entered from every unscoped buffer at the launch contents, left with the gate's array at what
    its write-back leaves. The generator register goes into the invariant and comes back; nothing is owed; the kernel
    has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V0 m c) ∗ E (F := F) 0 c)
  post c := iprop(StableHlo.held (c : Thread nD τ) (Pipeline.ucRefs τ sig) (V1 m (outs m) c) ∗ E (F := F) 1 c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region: entered from what the pooling region left, left with the result's array at what its
    write-backs leave. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (V1 m (outs m) c) ∗ E (F := F) 1 c)
  post c := iprop(StableHlo.held (c : Thread nD τ) (Pipeline.ucRefs τ sig) (V2 m (outs m) c) ∗ E (F := F) 2 c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    rw [V1_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (fun b => V2 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KiFrame.lean ====
/-
  The frame: @main is the pooling region followed by the scaling region; launched on any memory with every counter at
  zero, every weakly fair execution ends, nothing faulting, with each argument array holding what it held at launch.
  The launch deals each core its generator register and owes it nothing; that is all the thread states carry beside
  the buffers.
-/
import proofs.«136757_j27084063768970_1_alg».proof.Proof.KiSegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipelines' own: their staging cells and launch tokens, nothing beside. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers is made on every core from what the launch deals it. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the core owes nothing. -/
theorem hE2 (c : Dev nD) : E (F := F) 2 c ⊢ (iprop(∃ W, owes (c : Thread nD τ) (0 : CellTallies nD τ sig Unit) W) : sProp 𝕄) := by
  iintro ⟨-, H⟩; iexact H

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (E (F := F)) (hE0 ρ) hE2
    (reg0 m) (fun _ => .rfl) (fun _ => .rfl) (reg1 m) (fun _ => .rfl) (fun _ => .rfl)

end Cert.KernelIdeal.Hand
end
-- ==== Proof.KiVal0a.lean ====
/-
  The pooling region's small windows hold whole arrays: each weight's and each bias's block is its array, and the
  gate's one block is the gate's array, written back once, at the last tile.
-/
import proofs.«136757_j27084063768970_1_alg».proof.Proof.KiRegion0
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))

/-- The first dense layer's weights: the window's block is the whole array, at every tile. -/
theorem iblk0_1 (c : Dev nD) (t : Fin cfg0.N) : (iblk0 V c 1 t : Vec F S256x32 .f32) = (V c main_arg1 : Vec F S256x32 .f32) := by
  -- the block index is 0 on every axis and the block has the array's size: the block read is the array
  have hz : (fun a => win0_1.index t a * main_arg1.ty.shape.size a) = fun _ => 0 :=
    funext fun a => by fin_cases a <;> rfl
  exact Memref.read_access_unit_zero (Elt F) main_arg1 hz (fun a => by rw [congrFun hz a]; simp) (V c main_arg1)
theorem iblk0_2 (c : Dev nD) (t : Fin cfg0.N) : (iblk0 V c 2 t : Vec F S32 .f32) = (V c main_arg2 : Vec F S32 .f32) := by
  -- the block index is 0 on every axis and the block has the array's size: the block read is the array
  have hz : (fun a => win0_2.index t a * main_arg2.ty.shape.size a) = fun _ => 0 :=
    funext fun a => by fin_cases a <;> rfl
  exact Memref.read_access_unit_zero (Elt F) main_arg2 hz (fun a => by rw [congrFun hz a]; simp) (V c main_arg2)
theorem iblk0_3 (c : Dev nD) (t : Fin cfg0.N) : (iblk0 V c 3 t : Vec F S32x256 .f32) = (V c main_arg3 : Vec F S32x256 .f32) := by
  -- the block index is 0 on every axis and the block has the array's size: the block read is the array
  have hz : (fun a => win0_3.index t a * main_arg3.ty.shape.size a) = fun _ => 0 :=
    funext fun a => by fin_cases a <;> rfl
  exact Memref.read_access_unit_zero (Elt F) main_arg3 hz (fun a => by rw [congrFun hz a]; simp) (V c main_arg3)
theorem iblk0_4 (c : Dev nD) (t : Fin cfg0.N) : (iblk0 V c 4 t : Vec F S256 .f32) = (V c main_arg4 : Vec F S256 .f32) := by
  -- the block index is 0 on every axis and the block has the array's size: the block read is the array
  have hz : (fun a => win0_4.index t a * main_arg4.ty.shape.size a) = fun _ => 0 :=
    funext fun a => by fin_cases a <;> rfl
  exact Memref.read_access_unit_zero (Elt F) main_arg4 hz (fun a => by rw [congrFun hz a]; simp) (V c main_arg4)

/-- The last tile. -/
abbrev tLast : Fin cfg0.N := ⟨31, by rw [N0]; decide⟩

/-- THE GATE'S ARRAY after the pooling region: what the body stored at the last tile. -/
theorem final0 (c : Dev nD) : ((dat0 V c).arrAt 5 cfg0.N : Vec F S64x256 .f32) = gateAt V c tLast := by
  refine (dat0 V c).arrAt_eq_of_cover 5 (gateAt V c tLast) (fun t hf => ?_) (fun i => ⟨tLast, (flush0_5 tLast).mpr rfl, ?_⟩)
  · -- the one tile that writes back is the last; its block, at offsets 0 and of the array's size, reads the array
    have h31 : t.val = 31 := by have := (flush0_5 t).mp hf; have := lt_of_lt_of_eq t.isLt N0; omega
    obtain rfl : t = tLast := Fin.ext h31
    show (cfg0.win 5).cut (grid0.coords tLast) ((dat0 V c).after 5 tLast) = _
    rw [after0_5]
    have hz : (fun a => win0_5.index tLast a * main_v0.ty.shape.size a) = fun _ => 0 :=
      funext fun a => by fin_cases a <;> rfl
    exact (Memref.read_access_unit_zero (Elt F) main_v0 hz (fun a => by rw [congrFun hz a]; simp) (gateAt V c tLast)).symm
  · -- that block covers every index of the array
    show i ∈ ((View.whole main_v0).slice (win0_5.rect tLast)).set
    rw [View.set_slice_whole, Rect.mem_set_unit]
    intro a
    have h0 : (i 0 : Nat) < 64 := (i 0).isLt
    have h1 : (i 1 : Nat) < 256 := (i 1).isLt
    match a with
    | ⟨0, _⟩ =>
      show win0_5.index tLast 0 * win0_5.size 0 ≤ (i 0 : Nat) ∧ (i 0 : Nat) < win0_5.index tLast 0 * win0_5.size 0 + win0_5.xsize (grid0.coords tLast) 0
      rw [show win0_5.index tLast 0 * win0_5.size 0 = 0 from rfl, show win0_5.xsize (grid0.coords tLast) 0 = 64 from rfl]; omega
    | ⟨1, _⟩ =>
      show win0_5.index tLast 1 * win0_5.size 1 ≤ (i 1 : Nat) ∧ (i 1 : Nat) < win0_5.index tLast 1 * win0_5.size 1 + win0_5.xsize (grid0.coords tLast) 1
      rw [show win0_5.index tLast 1 * win0_5.size 1 = 0 from rfl, show win0_5.xsize (grid0.coords tLast) 1 = 256 from rfl]; omega

end

end Cert.KernelIdeal.Hand
end
-- ==== Proof.KiVal0b.lean ====
/-
  The pooling region's input window at tile t is rows 128 t … 128 t + 127 of the sequence axis of the input.
-/
import proofs.«136757_j27084063768970_1_alg».proof.Proof.KiRegion0
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))

/-- Tile t's block of the input sits at block index (0, t, 0): decided over the 32 grid points. -/
private theorem win0_0_index : ∀ t : Fin cfg0.N, win0_0.index t (0 : Fin 3) = 0 ∧ win0_0.index t (1 : Fin 3) = t.val
    ∧ win0_0.index t (2 : Fin 3) = 0 :=
  (by decide +kernel : ∀ t : Fin grid0.N, _)

/-- An element of tile `t`'s block is the input's element `128 t + r` along the sequence. -/
theorem iblk0_0_apply (c : Dev nD) (t : Fin cfg0.N) (b : Fin 64) (r : Fin 128) (c' : Fin 256) :
    (iblk0 V c 0 t : Vec F S64x128x256 .f32) (ix3 b r c')
      = (V c main_arg0 : Vec F S64x4096x256 .f32) (ix3 b ⟨128 * t.val + r.val, by have := lt_of_lt_of_eq t.isLt N0; have := r.isLt; omega⟩ c') := by
  unfold iblk0
  rw [View.read_apply]
  show (V c main_arg0 : Vec F S64x4096x256 .f32) (((cfg0.win 0).blk t).view.emb (ix3 b r c')) = _
  refine congrArg (V c main_arg0 : Vec F S64x4096x256 .f32) ?_
  obtain ⟨e0, e1, e2⟩ := win0_0_index t
  funext a; apply Fin.ext
  match a with
  | ⟨0, _⟩ => show win0_0.index t (0 : Fin 3) * 64 + 1 * b.val = b.val; omega
  | ⟨1, _⟩ => show win0_0.index t (1 : Fin 3) * 128 + 1 * r.val = 128 * t.val + r.val; omega
  | ⟨2, _⟩ => show win0_0.index t (2 : Fin 3) * 256 + 1 * c'.val = c'.val; omega

/-- The same of the sequence of tiles the accumulator folds over. -/
theorem tile_apply (c : Dev nD) (n : ℕ) (hn : n < 32) (b : Fin 64) (r : Fin 128) (c' : Fin 256) :
    tile V c n (ix3 b r c') = (V c main_arg0 : Vec F S64x4096x256 .f32) (ix3 b ⟨128 * n + r.val, by have := r.isLt; omega⟩ c') := by
  unfold tile
  rw [pt_of_lt n (by rw [N0]; exact hn)]
  exact iblk0_0_apply V c ⟨n, by rw [N0]; exact hn⟩ b r c'

end

end Cert.KernelIdeal.Hand
end
-- ==== Proof.ValScale.lean ====
import proofs.«136757_j27084063768970_1_alg».proof.Proof.KiAcc
import proofs.«136757_j27084063768970_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx
open Cert.KernelIdeal (S64x4096x256 S64x128x256 S64x256 S256x32 S32 S32x256 S256)

/-- The scaling body at an element: the tile's element times the gate at its (batch, channel). -/
theorem scale_apply (x0 : Vec Ideal S64x128x256 .f32) (g : Vec Ideal S64x256 .f32) (b : Fin 64) (r : Fin 128) (c : Fin 256) :
    Cert.KernelIdeal.Gen.k1_pay1 (F := Ideal) x0 g (ix3 b r c) = x0 (ix3 b r c) * g (ix2 b c) := by
  unfold Cert.KernelIdeal.Gen.k1_pay1
  -- a product of vectors read at an index is the product of the reads
  rw [mulf_apply]
  congr 1
  -- the broadcast along the row axis: [64,128,256] at (b, r, c) reads [64,1,256] at (b, 0, c)
  refine (broadcastTo_apply _ _ (ix3 b r c) (ix3 b (0 : Fin 1) c) (fun a => match a with
    | ⟨0, _⟩ => by show b.val = if (64 : Nat) = 1 then 0 else b.val; rw [if_neg (by decide)]
    | ⟨1, _⟩ => by show 0 = if (1 : Nat) = 1 then 0 else r.val; rw [if_pos rfl]
    | ⟨2, _⟩ => by show c.val = if (256 : Nat) = 1 then 0 else c.val; rw [if_neg (by decide)])).trans ?_
  -- the shape cast adding the unit axis: [64,1,256] at (b, 0, c) reads [64,256] at (b, c); both flatten to b * 256 + c
  refine (shapeCast_apply _ _ (ix3 b (0 : Fin 1) c) (ix2 b c)
    (by rw [Shape.rowMajor_val_two, Shape.rowMajor_val_three]
        show b.val * 256 + c.val = (b.val * 1 + 0) * 256 + c.val
        omega)).trans ?_
  -- the shape cast to the same shape is the identity
  rw [shapeCast_self]

/-- The reference's result at an element: the input's element times the reference's gate at its (batch, channel). -/
theorem ref_out_apply (x : FVec Ideal S64x4096x256 .f32) (w1 : FVec Ideal S256x32 .f32) (b1 : FVec Ideal S32 .f32)
    (w2 : FVec Ideal S32x256 .f32) (b2 : FVec Ideal S256 .f32) (b : Fin 64) (l : Fin 4096) (c : Fin 256) :
    Cert.ReferenceIdeal.Read.val_main_v20 (F := Ideal) x w1 b1 w2 b2 (ix3 b l c)
      = x (ix3 b l c) * Cert.ReferenceIdeal.Read.val_main_v17 (F := Ideal) x w1 b1 w2 b2 (ix2 b c) := by
  -- the product read at (b, l, c), then the two broadcasts read through their index maps
  rw [Cert.ReferenceIdeal.Read.val_main_v20_apply, Cert.ReferenceIdeal.Read.val_main_v19_apply,
    Cert.ReferenceIdeal.Read.val_main_v18_apply]
  -- the composed index map sends (b, l, c) to (b, 0, c) and then to (b, c)
  have hidx : Cert.ReferenceIdeal.Read.idx_main_v18 (Cert.ReferenceIdeal.Read.idx_main_v19 (ix3 b l c)) = ix2 b c := by
    funext a
    match a with
    | ⟨0, _⟩ => exact Fin.ext rfl
    | ⟨1, _⟩ => exact Fin.ext rfl
  rw [hidx]
  -- at the ideal instance a float product is the product of extended reals
  rfl

end Cert.Bridge
end
-- ==== Proof.KiVal1.lean ====
/-
  The result's array after the scaling region: every element of the input times the gate at its batch and channel.
-/
import proofs.«136757_j27084063768970_1_alg».proof.Proof.KiRegion1
import proofs.«136757_j27084063768970_1_alg».proof.Proof.ValScale
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The input's array, the gate's array and the result's array as the region finds and leaves them, at their literal types. -/
abbrev xArr (c : Dev nD) : Vec Ideal S64x4096x256 .f32 := V c main_arg0
abbrev gArr (c : Dev nD) : Vec Ideal S64x256 .f32 := V c main_v0
abbrev outArr (c : Dev nD) : Vec Ideal S64x4096x256 .f32 := (dat1 (F := Ideal) V c).arrAt 2 cfg1.N

/-- The (batch, channel) index under an element's (batch, position, channel) index. -/
private abbrev gateIdx (i : S64x4096x256.Idx) : S64x256.Idx :=
  ix2 (⟨(i 0).val, (i 0).isLt⟩ : Fin 64) (⟨(i 2).val, (i 2).isLt⟩ : Fin 256)

/-- What the result's array ends holding, as ONE function of the array index: the input's element times the gate at
    the element's batch and channel. -/
private abbrev scaled (c : Dev nD) : S64x4096x256.Idx → Elt Ideal .f32 := fun i => xArr V c i * gArr V c (gateIdx i)

/-- The block indices over the 32 tiles, decided: the input's and the result's block at tile `t` is the `t`-th along the
    position axis and the only one along batch and channel; the gate's block is its whole array. -/
private theorem tile_index_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- The scaling body at ANY index of a tile: the tile's element times the gate at the index's batch and channel. -/
private theorem scale_at (x0 : Vec Ideal S64x128x256 .f32) (g : Vec Ideal S64x256 .f32) (j : S64x128x256.Idx) :
    k1_pay1 (F := Ideal) x0 g j
      = x0 j * g (ix2 (⟨(j 0).val, (j 0).isLt⟩ : Fin 64) (⟨(j 2).val, (j 2).isLt⟩ : Fin 256)) := by
  -- an index is the triple of its coordinates
  have e : j = ix3 (⟨(j 0).val, (j 0).isLt⟩ : Fin 64) (⟨(j 1).val, (j 1).isLt⟩ : Fin 128) (⟨(j 2).val, (j 2).isLt⟩ : Fin 256) := by
    funext a; match a with | ⟨0, _⟩ => rfl | ⟨1, _⟩ => rfl | ⟨2, _⟩ => rfl
  calc k1_pay1 (F := Ideal) x0 g j
      = k1_pay1 (F := Ideal) x0 g (ix3 (⟨(j 0).val, (j 0).isLt⟩ : Fin 64) (⟨(j 1).val, (j 1).isLt⟩ : Fin 128) (⟨(j 2).val, (j 2).isLt⟩ : Fin 256)) := congrArg _ e
    _ = x0 (ix3 (⟨(j 0).val, (j 0).isLt⟩ : Fin 64) (⟨(j 1).val, (j 1).isLt⟩ : Fin 128) (⟨(j 2).val, (j 2).isLt⟩ : Fin 256))
          * g (ix2 (⟨(j 0).val, (j 0).isLt⟩ : Fin 64) (⟨(j 2).val, (j 2).isLt⟩ : Fin 256)) := Cert.Bridge.scale_apply x0 g _ _ _
    _ = x0 j * g (ix2 (⟨(j 0).val, (j 0).isLt⟩ : Fin 64) (⟨(j 2).val, (j 2).isLt⟩ : Fin 256)) := by rw [← e]

/-- WHAT TILE `t` WRITES BACK is block `t` of `scaled`: the tile's element at (b, r, c') is the input's element at
    (b, 128 t + r, c'), the gate's block is the gate's whole array, and the result's block at `t` lies where the
    input's does. -/
private theorem flushed_eq_scaled (c : Dev nD) (t : Fin cfg1.N) :
    (dat1 (F := Ideal) V c).flushed 2 t = ((cfg1.win 2).blk t).view.read (Elt Ideal) (scaled V c) := by
  show (cfg1.win 2).cut (grid1.coords t) ((dat1 V c).after 2 t) = _
  rw [after1_2]
  funext j
  refine (scale_at (iblk1 V c 0 t) (iblk1 V c 1 t) j).trans ?_
  obtain ⟨e0, e1, e2, e3, e4, e5, e6, e7⟩ := tile_index_facts t
  -- both sides as reads of the arrays: a block's element is the array's element at the block's offset plus the coordinate
  show xArr V c (((cfg1.win 0).blk t).view.emb j)
      * gArr V c (((cfg1.win 1).blk t).view.emb (ix2 (⟨(j 0).val, (j 0).isLt⟩ : Fin 64) (⟨(j 2).val, (j 2).isLt⟩ : Fin 256)))
    = xArr V c (((cfg1.win 2).blk t).view.emb j) * gArr V c (gateIdx (((cfg1.win 2).blk t).view.emb j))
  -- the input's block and the result's block at tile `t` sit at the same offsets
  have h0 : ((cfg1.win 0).blk t).view.emb j = ((cfg1.win 2).blk t).view.emb j := by
    funext a; apply Fin.ext
    match a with
    | ⟨0, _⟩ => show win1_0.index t (0 : Fin 3) * 64 + 1 * (j 0).val = win1_2.index t (0 : Fin 3) * 64 + 1 * (j 0).val; omega
    | ⟨1, _⟩ => show win1_0.index t (1 : Fin 3) * 128 + 1 * (j 1).val = win1_2.index t (1 : Fin 3) * 128 + 1 * (j 1).val; omega
    | ⟨2, _⟩ => show win1_0.index t (2 : Fin 3) * 256 + 1 * (j 2).val = win1_2.index t (2 : Fin 3) * 256 + 1 * (j 2).val; omega
  -- the gate's block starts at (0, 0), and the result's block starts at 0 along batch and channel
  have h1 : ((cfg1.win 1).blk t).view.emb (ix2 (⟨(j 0).val, (j 0).isLt⟩ : Fin 64) (⟨(j 2).val, (j 2).isLt⟩ : Fin 256))
      = gateIdx (((cfg1.win 2).blk t).view.emb j) := by
    funext a; apply Fin.ext
    match a with
    | ⟨0, _⟩ => show win1_1.index t (0 : Fin 2) * 64 + 1 * (j 0).val = win1_2.index t (0 : Fin 3) * 64 + 1 * (j 0).val; omega
    | ⟨1, _⟩ => show win1_1.index t (1 : Fin 2) * 256 + 1 * (j 2).val = win1_2.index t (2 : Fin 3) * 256 + 1 * (j 2).val; omega
  rw [h0, h1]

/-- An index of the result's array is in tile `t`'s block iff each coordinate is in the block's range on its axis. -/
private theorem mem_out_blk (t : Fin cfg1.N) (i : S64x4096x256.Idx) :
    i ∈ ((cfg1.win 2).blk t).view.set ↔ ∀ a : Fin 3, win1_2.index t a * S64x128x256.size a ≤ (i a).val
      ∧ (i a).val < win1_2.index t a * S64x128x256.size a + S64x128x256.size a := by
  show i ∈ ((View.whole main_v1).slice (win1_2.rect t)).set ↔ _
  rw [View.set_slice_whole, Rect.mem_set_unit]
  exact Iff.rfl

/-- THE BLOCKS COVER THE ARRAY: the index (b, l, c') lies in the block of tile l / 128, and every tile writes back. -/
private theorem out_covered (i : S64x4096x256.Idx) :
    ∃ t : Fin cfg1.N, (cfg1.win 2).flush t = true ∧ i ∈ ((cfg1.win 2).blk t).view.set := by
  have hi0 : (i 0).val < 64 := (i 0).isLt
  have hi1 : (i 1).val < 4096 := (i 1).isLt
  have hi2 : (i 2).val < 256 := (i 2).isLt
  let t : Fin cfg1.N := (⟨(i 1).val / 128, by omega⟩ : Fin 32)
  refine ⟨t, flush1_2 t, ?_⟩
  obtain ⟨e0, e1, e2, e3, e4, e5, e6, e7⟩ := tile_index_facts t
  have ht : t.val = (i 1).val / 128 := rfl
  rw [mem_out_blk]
  intro a
  match a with
  | ⟨0, _⟩ => show win1_2.index t (0 : Fin 3) * 64 ≤ (i 0).val ∧ (i 0).val < win1_2.index t (0 : Fin 3) * 64 + 64; omega
  | ⟨1, _⟩ => show win1_2.index t (1 : Fin 3) * 128 ≤ (i 1).val ∧ (i 1).val < win1_2.index t (1 : Fin 3) * 128 + 128; omega
  | ⟨2, _⟩ => show win1_2.index t (2 : Fin 3) * 256 ≤ (i 2).val ∧ (i 2).val < win1_2.index t (2 : Fin 3) * 256 + 256; omega

/-- So the result's array after the region IS `scaled`: every tile writes its block of it, and the blocks cover the array. -/
private theorem out_eq_scaled (c : Dev nD) : outArr V c = scaled V c :=
  (dat1 (F := Ideal) V c).arrAt_eq_of_cover 2 (scaled V c) (fun t _ => flushed_eq_scaled V c t) out_covered

/-- THE RESULT'S ARRAY after the scaling region, element by element. -/
theorem final1_apply (c : Dev nD) (b : Fin 64) (l : Fin 4096) (c' : Fin 256) :
    outArr V c (ix3 b l c') = xArr V c (ix3 b l c') * gArr V c (ix2 b c') := by
  -- the array is `scaled`; at (b, l, c') its (batch, channel) index is (b, c')
  rw [out_eq_scaled]

end

end Cert.KernelIdeal.Hand
end
-- ==== Proof.ValGate.lean ====
import proofs.«136757_j27084063768970_1_alg».proof.Proof.KiAcc
import proofs.«136757_j27084063768970_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx
open Cert.KernelIdeal (S64x4096x256 S64x128x256 S64x256 S256x32 S32 S32x256 S256)

/-! ### The constant words -/

/-- The word 0x39800000 denotes 2⁻¹² = 1/4096. -/
private theorem ofBits_inv4096 : Ideal.ofBits .f32 0x39800000#32 = ((1 / 4096 : ℝ) : EReal) := by
  simp [Ideal.ofBits, Ideal.ieee, -EReal.coe_mul]; norm_num

/-- The word 0x45800000 denotes 4096. -/
private theorem ofBits_4096 : Ideal.ofBits .f32 0x45800000#32 = ((4096 : ℝ) : EReal) := by
  simp [Ideal.ofBits, Ideal.ieee, -EReal.coe_mul]; norm_num

/-- The word 0x3F800000 denotes 1. -/
private theorem ofBits_one : Ideal.ofBits .f32 0x3F800000#32 = 1 := by
  simp [Ideal.ofBits, Ideal.ieee, -EReal.coe_mul]; norm_num

section Stages
open Cert.ReferenceIdeal.Read

/-! ### The mean over the sequence -/

/-- The accumulator times 2⁻¹² is the reference's sum over the sequence divided by 4096: division by the real 4096 is
    multiplication by 1/4096 on every extended real, and the reference's sum starts from the zero word. -/
private theorem mean_eq (x : FVec Ideal S64x4096x256 .f32) (acc : FVec Ideal S64x256 .f32)
    (hacc : ∀ (b : Fin 64) (c : Fin 256), acc (ix2 b c) = ∑ k : Fin 4096, x (ix3 b k c)) :
    mulf acc (broadcast S64x256 (Scalar.ofBits (F := Ideal) .f32 0x39800000#32)) = val_main_v2 (F := Ideal) x := by
  funext i
  obtain ⟨b, c, rfl⟩ : ∃ b c, i = ix2 b c := ⟨i 0, i 1, eq_ix2 i⟩
  rw [val_main_v2_apply, val_main_v0_apply, val_main_v1_apply, val_main_cst_0_apply, val_main_cst_apply]
  simp only [Ideal.hostDivf_def, Ideal.ofBits_def]
  rw [ofBits_4096, Ideal.div_coe (by norm_num), Ideal.ofBits_zero_f32, zero_add]
  show acc (ix2 b c) * Ideal.ofBits .f32 0x39800000#32 = _
  rw [hacc, ofBits_inv4096]
  congr 1
  refine Finset.sum_congr rfl fun k _ => congrArg x ?_
  funext a
  match a with
  | ⟨0, _⟩ => rfl
  | ⟨1, _⟩ => rfl
  | ⟨2, _⟩ => rfl

/-! ### The two products -/

/-- A product accumulated into the zero array is the host's product of the same operands: both are the sum over the
    contraction index of the operands' products, and the two records of dimension numbers have the same fields. The
    operands' formats play no part, an extended real being the same in each. -/
private theorem matmul1_eq {φ₁ φ₂ ψ₁ ψ₂ : FTy} (l : Cert.KernelIdeal.S64x256.Idx → EReal) (r : Cert.KernelIdeal.S256x32.Idx → EReal) :
    matmul (F := Ideal) (φ₁ := φ₁) (φ₂ := φ₂) Cert.KernelIdeal.dot_S64x256_S256x32_S64x32_1_0_0_1_n_n none l r
        (constant Cert.KernelIdeal.S64x32 .f32 0x00000000#32)
      = Host.dotGeneral (F := Ideal) (φ₁ := ψ₁) (φ₂ := ψ₂) Cert.ReferenceIdeal.dot_S64x256_S256x32_S64x32_1_0_0_1_n_n none l r := by
  funext j
  simp only [matmul, Host.dotGeneral]
  rw [Ideal.matmul_constant_zero_apply, Ideal.dotGeneral_apply]
  rfl

/-- The second product likewise. -/
private theorem matmul2_eq {φ₁ φ₂ ψ₁ ψ₂ : FTy} (l : Cert.KernelIdeal.S64x32.Idx → EReal) (r : Cert.KernelIdeal.S32x256.Idx → EReal) :
    matmul (F := Ideal) (φ₁ := φ₁) (φ₂ := φ₂) Cert.KernelIdeal.dot_S64x32_S32x256_S64x256_1_0_0_1_n_n none l r
        (constant Cert.KernelIdeal.S64x256 .f32 0x00000000#32)
      = Host.dotGeneral (F := Ideal) (φ₁ := ψ₁) (φ₂ := ψ₂) Cert.ReferenceIdeal.dot_S64x32_S32x256_S64x256_1_0_0_1_n_n none l r := by
  funext j
  simp only [matmul, Host.dotGeneral]
  rw [Ideal.matmul_constant_zero_apply, Ideal.dotGeneral_apply]
  rfl

/-! ### The biases and the zero of the rectifier -/

/-- The first bias, cast to one row and repeated over the 64 rows, is the reference's two broadcasts of it: both read
    the bias at the column. -/
private theorem bias1_eq (b1 : FVec Ideal S32 .f32) (h1 : S32.ShapeCasts Cert.KernelIdeal.S1x32)
    (h2 : Cert.KernelIdeal.S1x32.Broadcasts Cert.KernelIdeal.S64x32) :
    broadcastTo Cert.KernelIdeal.S64x32 (shapeCast Cert.KernelIdeal.S1x32 b1 h1) h2 = val_main_v5 (F := Ideal) b1 := by
  funext i
  obtain ⟨p, c, rfl⟩ : ∃ p c, i = ix2 p c := ⟨i 0, i 1, eq_ix2 i⟩
  rw [broadcastTo_1b_ab_apply, shapeCast_a_1a_apply, val_main_v5_apply, val_main_v4_apply]
  refine congrArg b1 (funext fun a => ?_)
  match a with
  | ⟨0, _⟩ => rfl

/-- The second bias likewise. -/
private theorem bias2_eq (b2 : FVec Ideal S256 .f32) (h1 : S256.ShapeCasts Cert.KernelIdeal.S1x256)
    (h2 : Cert.KernelIdeal.S1x256.Broadcasts S64x256) :
    broadcastTo S64x256 (shapeCast Cert.KernelIdeal.S1x256 b2 h1) h2 = val_main_v10 (F := Ideal) b2 := by
  funext i
  obtain ⟨p, c, rfl⟩ : ∃ p c, i = ix2 p c := ⟨i 0, i 1, eq_ix2 i⟩
  rw [broadcastTo_1b_ab_apply, shapeCast_a_1a_apply, val_main_v10_apply, val_main_v9_apply]
  refine congrArg b2 (funext fun a => ?_)
  match a with
  | ⟨0, _⟩ => rfl

/-- The zero the kernel's rectifier compares against is the reference's broadcast zero: the same word everywhere. -/
private theorem zero_eq :
    broadcast Cert.KernelIdeal.S64x32 (Scalar.ofBits (F := Ideal) .f32 0x00000000#32) = val_main_call0_v0 (F := Ideal) := by
  funext i
  rw [val_main_call0_v0_apply, val_main_call0_cst_apply]
  rfl

/-! ### The hidden layer -/

/-- The hidden layer (64 × 32), max (mean · w1 + b1, 0): the kernel's is the reference's. The narrowing of the
    product's operands is the identity on extended reals. -/
private theorem hidden_eq (x : FVec Ideal S64x4096x256 .f32) (acc : FVec Ideal S64x256 .f32)
    (w1 : FVec Ideal S256x32 .f32) (b1 : FVec Ideal S32 .f32)
    (hacc : ∀ (b : Fin 64) (c : Fin 256), acc (ix2 b c) = ∑ k : Fin 4096, x (ix3 b k c))
    (ht : FTy.bits .bf16 < FTy.bits .f32)
    (h1 : S32.ShapeCasts Cert.KernelIdeal.S1x32) (h2 : Cert.KernelIdeal.S1x32.Broadcasts Cert.KernelIdeal.S64x32) :
    maximumf
        (addf
          (matmul (F := Ideal) Cert.KernelIdeal.dot_S64x256_S256x32_S64x32_1_0_0_1_n_n none
            (truncf .bf16 (mulf acc (broadcast S64x256 (Scalar.ofBits (F := Ideal) .f32 0x39800000#32))) ht)
            (truncf .bf16 w1 ht) (constant Cert.KernelIdeal.S64x32 .f32 0x00000000#32))
          (broadcastTo Cert.KernelIdeal.S64x32 (shapeCast Cert.KernelIdeal.S1x32 b1 h1) h2))
        (broadcast Cert.KernelIdeal.S64x32 (Scalar.ofBits (F := Ideal) .f32 0x00000000#32))
      = val_main_v7 (F := Ideal) x w1 b1 := by
  unfold val_main_v7 val_main_v6 val_main_v3
  rw [bias1_eq, zero_eq, ← mean_eq x acc hacc]
  exact congrArg (fun m => maximumf (addf m (val_main_v5 (F := Ideal) b1)) (val_main_call0_v0 (F := Ideal)))
    (matmul1_eq (φ₁ := .bf16) (φ₂ := .bf16) (ψ₁ := .f32) (ψ₂ := .f32) _ _)

end Stages

/-! ### The gate -/

/-- The logistic function is the expansion 1 / (1 + exp (−z)), its two ones written as the word 0x3F800000. -/
private theorem logistic_expand (z : EReal) :
    Ideal.logistic z = Ideal.div (Ideal.ofBits .f32 0x3F800000#32) (Ideal.ofBits .f32 0x3F800000#32 + Ideal.exp (-z)) := by
  rw [ofBits_one]; rfl

/-- Once the accumulator holds the sum over the whole sequence, the kernel's gate is the reference's gate. -/
theorem gate_eq (x : FVec Ideal S64x4096x256 .f32) (acc : FVec Ideal S64x256 .f32)
    (w1 : FVec Ideal S256x32 .f32) (b1 : FVec Ideal S32 .f32) (w2 : FVec Ideal S32x256 .f32) (b2 : FVec Ideal S256 .f32)
    (hacc : ∀ (b : Fin 64) (c : Fin 256), acc (ix2 b c) = ∑ k : Fin 4096, x (ix3 b k c)) :
    Cert.KernelIdeal.Gen.k0_pay3 (F := Ideal) acc w1 b1 w2 b2
      = Cert.ReferenceIdeal.Read.val_main_v17 (F := Ideal) x w1 b1 w2 b2 := by
  unfold Cert.KernelIdeal.Gen.k0_pay3
  dsimp only
  -- the hidden layer and the second bias are the reference's
  rw [hidden_eq x acc w1 b1 hacc, bias2_eq]
  funext i
  -- the reference's gate at an element: 1 / (1 + exp (−(hidden · w2 + b2))), which is the logistic function there
  rw [Cert.ReferenceIdeal.Read.val_main_v17_apply, Cert.ReferenceIdeal.Read.val_main_v16_apply,
    Cert.ReferenceIdeal.Read.val_main_cst_2_apply, Cert.ReferenceIdeal.Read.val_main_v15_apply,
    Cert.ReferenceIdeal.Read.val_main_v14_apply, Cert.ReferenceIdeal.Read.val_main_cst_1_apply,
    Cert.ReferenceIdeal.Read.val_main_v13_apply, Cert.ReferenceIdeal.Read.val_main_v12_apply,
    Cert.ReferenceIdeal.Read.val_main_v11_apply]
  simp only [Ideal.hostDivf_def, Ideal.ofBits_def, Ideal.addf_def, Ideal.hostUnary_exp_def, Ideal.hostNegf_def, Ideal.negf_def]
  rw [← logistic_expand]
  unfold Cert.ReferenceIdeal.Read.val_main_v8
  -- the second product into the zero array is the host's product
  exact congrArg (fun m : S64x256.Idx → EReal => Ideal.logistic (m i + Cert.ReferenceIdeal.Read.val_main_v10 (F := Ideal) b2 i))
    (matmul2_eq (φ₁ := .bf16) (φ₂ := .bf16) (ψ₁ := .f32) (ψ₂ := .f32) _ _)

end Cert.Bridge
end
-- ==== Proof.ValAccum.lean ====
import proofs.«136757_j27084063768970_1_alg».proof.Proof.KiAcc
import proofs.«136757_j27084063768970_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx
open Cert.KernelIdeal (S64x4096x256 S64x128x256 S64x256 S256x32 S32 S32x256 S256)

/-- The cleared accumulator reads the extended real 0 everywhere. -/
private theorem k0_pay1_apply (j : S64x256.Idx) :
    Cert.KernelIdeal.Gen.k0_pay1 (F := Ideal) j = 0 := by
  unfold Cert.KernelIdeal.Gen.k0_pay1
  simp only [shapeCast_self]
  show Ideal.ofBits .f32 0x00000000#32 = 0
  exact Ideal.ofBits_zero_f32

/-- One tile's step at (b, c): what was there plus the tile's 128 rows at (b, ·, c). -/
private theorem k0_pay2_apply (v3 : Vec Ideal S64x256 .f32) (v4 : Vec Ideal S64x128x256 .f32)
    (b : Fin 64) (c : Fin 256) :
    Cert.KernelIdeal.Gen.k0_pay2 (F := Ideal) v3 v4 (ix2 b c) = v3 (ix2 b c) + ∑ r : Fin 128, v4 (ix3 b r c) := by
  unfold Cert.KernelIdeal.Gen.k0_pay2
  simp only [shapeCast_self]
  rw [addf_apply]
  congr 1
  refine (Ideal.multiReduction_add_single (φ := .f32) v4 (0x00000000#32) Cert.KernelIdeal.Gen.reduces_S64x128x256_S64x256 (.inl rfl) rfl (ix2 b c)).trans ?_
  refine Finset.sum_congr rfl fun r _ => congrArg v4 ?_
  funext a
  match a with
  | ⟨0, _⟩ => rfl
  | ⟨1, _⟩ => rfl
  | ⟨2, _⟩ => rfl

/-- The sequence x[b, ·, c] continued by zeros past its 4096 entries, so that sums over ranges of naturals can be split
    and joined without carrying bounds. -/
private def seqAt (x : FVec Ideal S64x4096x256 .f32) (b : Fin 64) (c : Fin 256) (k : ℕ) : EReal :=
  if h : k < 4096 then x (ix3 b ⟨k, h⟩ c) else 0

/-- Tile t's 128 row entries at (b, ·, c) are entries 128 t … 128 t + 127 of the sequence. -/
private theorem blk_sum (x : FVec Ideal S64x4096x256 .f32) (blk : ℕ → Vec Ideal S64x128x256 .f32)
    (hblk : ∀ (t : ℕ) (ht : t < 32) (b : Fin 64) (r : Fin 128) (c : Fin 256),
      blk t (ix3 b r c) = x (ix3 b ⟨128 * t + r.val, by have := r.isLt; omega⟩ c))
    (b : Fin 64) (c : Fin 256) (t : ℕ) (ht : t < 32) :
    ∑ r : Fin 128, blk t (ix3 b r c) = ∑ k ∈ Finset.range 128, seqAt x b c (128 * t + k) := by
  rw [← Fin.sum_univ_eq_sum_range (fun k => seqAt x b c (128 * t + k)) 128]
  refine Finset.sum_congr rfl fun r _ => ?_
  have hr := r.isLt
  rw [hblk t ht b r c, seqAt, dif_pos (by omega)]

/-- After tile n the accumulator holds, at (b, c), the first 128 (n + 1) entries' sum. -/
private theorem accOf_apply (x : FVec Ideal S64x4096x256 .f32) (blk : ℕ → Vec Ideal S64x128x256 .f32)
    (hblk : ∀ (t : ℕ) (ht : t < 32) (b : Fin 64) (r : Fin 128) (c : Fin 256),
      blk t (ix3 b r c) = x (ix3 b ⟨128 * t + r.val, by have := r.isLt; omega⟩ c))
    (b : Fin 64) (c : Fin 256) (n : ℕ) (hn : n ≤ 31) :
    Cert.KernelIdeal.Hand.accOf (F := Ideal) blk n (ix2 b c)
      = ∑ k ∈ Finset.range (128 * (n + 1)), seqAt x b c k := by
  induction n with
  | zero =>
    rw [Cert.KernelIdeal.Hand.accOf_zero, k0_pay2_apply, k0_pay1_apply, zero_add,
      blk_sum x blk hblk b c 0 (by omega)]
    simp only [Nat.mul_zero, Nat.zero_add, Nat.mul_one]
  | succ m ih =>
    rw [Cert.KernelIdeal.Hand.accOf_succ, k0_pay2_apply, ih (by omega),
      blk_sum x blk hblk b c (m + 1) (by omega), ← Finset.sum_range_add]
    rfl

/-- The accumulator after the last of the 32 tiles holds, at (b, c), the sum of x[b, ·, c] over the whole sequence,
    when tile t's block is rows 128 t … 128 t + 127 of x. -/
theorem accOf_last_apply (x : FVec Ideal S64x4096x256 .f32) (blk : ℕ → Vec Ideal S64x128x256 .f32)
    (hblk : ∀ (t : ℕ) (ht : t < 32) (b : Fin 64) (r : Fin 128) (c : Fin 256),
      blk t (ix3 b r c) = x (ix3 b ⟨128 * t + r.val, by have := r.isLt; omega⟩ c))
    (b : Fin 64) (c : Fin 256) :
    Cert.KernelIdeal.Hand.accOf (F := Ideal) blk 31 (ix2 b c) = ∑ k : Fin 4096, x (ix3 b k c) := by
  rw [accOf_apply x blk hblk b c 31 le_rfl,
    ← Fin.sum_univ_eq_sum_range (fun k => seqAt x b c k) 4096]
  refine Finset.sum_congr rfl fun k _ => ?_
  rw [seqAt, dif_pos k.isLt]

end Cert.Bridge
end
-- ==== Proof.KiValue.lean ====
/-
  The idealized kernel's result. The run of @main names the result's array as what the scaling region's write-backs
  leave: element (b, l, c) of the input times the gate at (b, c). The gate's array is what the pooling region stored at
  its last tile: the logistic of the second dense layer of the rectified first dense layer of the accumulated sums
  scaled by 2⁻¹². The accumulated sum at (b, c) is the sum of the input over the whole sequence, so the scaled sum is
  the mean the reference divides out, and the two gates, hence the two results, are one function of the arguments.
-/
import proofs.«136757_j27084063768970_1_alg».proof.Proof.KiFrame
import proofs.«136757_j27084063768970_1_alg».proof.Proof.KiRun
import proofs.«136757_j27084063768970_1_alg».proof.Proof.KiVal0a
import proofs.«136757_j27084063768970_1_alg».proof.Proof.KiVal0b
import proofs.«136757_j27084063768970_1_alg».proof.Proof.KiVal1
import proofs.«136757_j27084063768970_1_alg».proof.Proof.ValGate
import proofs.«136757_j27084063768970_1_alg».proof.Proof.ValAccum
import proofs.«136757_j27084063768970_1_alg».proof.Proof.ValScale

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The arguments at their literal types -/

abbrev xIn (c : Dev nD) : Vec Ideal S64x4096x256 .f32 := m ((c.tc : Thread nD τ).loc main_arg0)
abbrev w1In (c : Dev nD) : Vec Ideal S256x32 .f32 := m ((c.tc : Thread nD τ).loc main_arg1)
abbrev b1In (c : Dev nD) : Vec Ideal S32 .f32 := m ((c.tc : Thread nD τ).loc main_arg2)
abbrev w2In (c : Dev nD) : Vec Ideal S32x256 .f32 := m ((c.tc : Thread nD τ).loc main_arg3)
abbrev b2In (c : Dev nD) : Vec Ideal S256 .f32 := m ((c.tc : Thread nD τ).loc main_arg4)

/-- The reference's result as a function of the arguments (its last stage). -/
abbrev refOut (c : Dev nD) : Vec Ideal S64x4096x256 .f32 :=
  Cert.ReferenceIdeal.Read.val_main_v20 (F := Ideal) (xIn m c) (w1In m c) (b1In m c) (w2In m c) (b2In m c)

/-! ## The gate -/

/-- The accumulator after the last tile is the sum over the sequence. -/
theorem acc_last (c : Dev nD) (b : Fin 64) (c' : Fin 256) :
    acc (Va m) c 31 (ix2 b c') = ∑ k : Fin 4096, xIn m c (ix3 b k c') :=
  Cert.Bridge.accOf_last_apply (xIn m c) (tile (Va m) c) (fun t ht b r c' => tile_apply (Va m) c t ht b r c') b c'

/-- The gate's array after the pooling region is the reference's gate. -/
theorem gate_arr (c : Dev nD) :
    (V1 m (outs m) c main_v0 : Vec Ideal S64x256 .f32)
      = Cert.ReferenceIdeal.Read.val_main_v17 (F := Ideal) (xIn m c) (w1In m c) (b1In m c) (w2In m c) (b2In m c) := by
  rw [V1_gate m c, final0 (Va m) c]
  unfold gateAt
  rw [iblk0_1 (Va m) c, iblk0_2 (Va m) c, iblk0_3 (Va m) c, iblk0_4 (Va m) c]
  exact Cert.Bridge.gate_eq (xIn m c) (acc (Va m) c 31) (w1In m c) (b1In m c) (w2In m c) (b2In m c) (acc_last m c)

/-! ## The result -/

/-- The result's array after the run is the reference's function of the arguments. -/
theorem result_eq (c : Dev nD) : (V2 m (outs m) c main_v1 : Vec Ideal S64x4096x256 .f32) = refOut m c := by
  funext i
  obtain ⟨b, l, c', rfl⟩ : ∃ (b : Fin 64) (l : Fin 4096) (c' : Fin 256), i = ix3 b l c' := ⟨i 0, i 1, i 2, eq_ix3 i⟩
  rw [V2_result m c]
  refine (final1_apply (Vb m) c b l c').trans ?_
  rw [show refOut m c (ix3 b l c') = _ from Cert.Bridge.ref_out_apply (xIn m c) (w1In m c) (b1In m c) (w2In m c) (b2In m c) b l c']
  have hx : xArr (Vb m) c = xIn m c := by
    show Function.update (V0 m c) main_v0 (Wa m c main_v0) main_arg0 = _
    exact Function.update_of_ne (StableHlo.devRef_ne_of_ne (by decide)) _ _
  have hg : gArr (Vb m) c = Cert.ReferenceIdeal.Read.val_main_v17 (F := Ideal) (xIn m c) (w1In m c) (b1In m c) (w2In m c) (b2In m c) :=
    gate_arr m c
  rw [hx, hg]

set_option backward.isDefEq.respectTransparency.types false in
/-- THE RUN, with the result named: every weakly fair execution of @main ends with the result's array at the
    reference's function of the arguments and the arguments unchanged. -/
theorem run_value : θ_run defs (onTc (τ := τ) (main (F := Ideal))) ⟨m, fun _ => 0, ρ⟩ (fun r => ∀ c : Dev nD,
      r.2.mem ((c.tc : Thread nD τ).loc main_v1) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩)
    (Cert.KernelIdeal.GenP.run_cond m emb₁ () 𝒱₀ L lv (fun _ _ => rfl) ρ (outs m) (pdats m) 0 (fun _ => iprop(emp))
      (initOf (Pipeline.cells cfgs cellOf_inj) (Pipeline.launchToks cfgs cellOf_inj)) hu₀
      (E (F := Ideal)) (hE0 ρ) hE2
      (reg0 m) (fun _ => .rfl) (fun _ => .rfl) (reg1 m) (fun _ => .rfl) (fun _ => .rfl))

end Cert.KernelIdeal.Hand
end
-- ==== Proof.lean ====
/-
  The certificate of a squeeze-and-excitation block against its jnp reference. The kernel's program pools the input
  over its sequence axis tile by tile into an accumulator kept in scratch, turns the pooled sums into a gate — the mean,
  a dense layer and a rectifier, a second dense layer and a logistic — in the last tile's step, and in a second region
  multiplies every tile of the input by the gate. The reference computes the mean by one sum and a division, the same
  two dense layers, the logistic spelt 1 / (1 + e⁻ˣ), and one broadcast product.

  Frames: each of the kernel's two programs is two pipelined regions; their bodies are run on whole staging buffers, the
  pooling region's invariant carrying what the scratch accumulator holds after each tile, and the two regions are chained
  through the buffers' contents between them. The reference's frame is its run with the result dropped.
  Values, at the extended reals: the accumulator after the last tile is the sum over the whole sequence (a regrouping of
  one finite sum by tiles), multiplying by 2⁻¹² is dividing by 4096, a matrix product into a zero accumulator is the host's
  dot product, the rectifier and the biases read alike at an index, and the logistic is its own spelling; the scaling
  region's blocks tile the result, each element the input's element times the gate at its batch and channel.
  Nothing in the idealized program was rewritten, so there is nothing for the idealization's soundness to state.
-/
import proofs.«136757_j27084063768970_1_alg».proof.Defs
import proofs.«136757_j27084063768970_1_alg».proof.Proof.Gen.Kernel
import proofs.«136757_j27084063768970_1_alg».proof.Proof.Gen.KernelIdeal
import proofs.«136757_j27084063768970_1_alg».proof.Proof.Gen.ReferenceIdeal
import proofs.«136757_j27084063768970_1_alg».proof.Proof.Gen.Pre_finite_inputs
import proofs.«136757_j27084063768970_1_alg».proof.Proof.Gen.ReferenceIdeal.Run
import proofs.«136757_j27084063768970_1_alg».proof.Proof.Gen.ReferenceIdeal.Read
import proofs.«136757_j27084063768970_1_alg».proof.Proof.KeFrame
import proofs.«136757_j27084063768970_1_alg».proof.Proof.KiFrame
import proofs.«136757_j27084063768970_1_alg».proof.Proof.KiValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_kernel : Cert.frame_Kernel := fun m ρ _ => Cert.Kernel.Hand.frame (F := Bits) m ρ

/-- So does the idealized program, read at the extended reals. -/
theorem frame_kernelIdeal : Cert.frame_KernelIdeal := fun m ρ _ => Cert.KernelIdeal.Hand.frame (F := Ideal) m ρ

/-- The reference is host operations only: its frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at one function of the
    arguments: the reference's last stage. -/
theorem algebraic : Cert.algebraic_KernelIdeal_ReferenceIdeal := by
  intro m ρ m' ρ' _ hagree
  refine ⟨fun c => Cert.KernelIdeal.Hand.refOut m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
